-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128x56x56 : Shape := ⟨4, ![128, 128, 56, 56]⟩
abbrev S128 : Shape := ⟨1, ![128]⟩
abbrev S100x128 : Shape := ⟨2, ![100, 128]⟩
abbrev S_ : Shape := ⟨0, ![]⟩

class Facts : Prop where
  bcast_S_S128x128x56x56 : S_.BroadcastsInDim S128x128x56x56 (![] : Fin 0 → Fin S128x128x56x56.rank)
  reducesTo_S128x128x56x56_S_d0_1_2_3 : S128x128x56x56.ReducesTo [0, 1, 2, 3] S_
  h_S_ : 0 < S_.numel
  bcast_S_S128 : S_.BroadcastsInDim S128 (![] : Fin 0 → Fin S128.rank)
  reducesTo_S128_S_d0 : S128.ReducesTo [0] S_
  bcast_S_S100x128 : S_.BroadcastsInDim S100x128 (![] : Fin 0 → Fin S100x128.rank)
  reducesTo_S100x128_S_d0_1 : S100x128.ReducesTo [0, 1] S_

variable [Facts]

def fn_part2 {F : FTy → Type} [FloatOps F] (main_arg5 : FVec F S128 .f32) (main_arg7 : FVec F S100x128 .f32) (main_v33 : IVec S_ 1) : IVec S_ 1 :=
  let main_cst_12 : FVec F S_ .f32 := constant S_ .f32 0x00000000#32
  let main_v34 : FVec F S128 .f32 := broadcastInDim S128 ![] bcast_S_S128 main_cst_12
  let main_v35 : IVec S128 1 := cmpf .oge main_arg5 main_v34
  let main_c_13 : IVec S_ 1 := constantI S_ 1 1#1
  let main_v36 : IVec S_ 1 := (fun x v => Host.reduce IntOp.andi x v reducesTo_S128_S_d0 h_S_) main_v35 main_c_13
  let main_v37 : IVec S_ 1 := andi main_v33 main_v36
  let main_cst_14 : FVec F S_ .f32 := constant S_ .f32 0x00000000#32
  let main_v38 : FVec F S100x128 .f32 := broadcastInDim S100x128 ![] bcast_S_S100x128 main_cst_14
  let main_v39 : IVec S100x128 1 := cmpf .oge main_arg7 main_v38
  let main_c_15 : IVec S_ 1 := constantI S_ 1 1#1
  let main_v40 : IVec S_ 1 := (fun x v => Host.reduce IntOp.andi x v reducesTo_S100x128_S_d0_1 h_S_) main_v39 main_c_15
  let main_v41 : IVec S_ 1 := andi main_v37 main_v40
  main_v41

def fn_part1 {F : FTy → Type} [FloatOps F] (main_arg5 : FVec F S128 .f32) (main_arg6 : FVec F S100x128 .f32) (main_arg7 : FVec F S100x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S100x128 .f32 := Host.absf main_arg6
  let main_cst_8 : FVec F S_ .f32 := constant S_ .f32 0x7F800000#32
  let main_v25 : FVec F S100x128 .f32 := broadcastInDim S100x128 ![] bcast_S_S100x128 main_cst_8
  let main_v26 : IVec S100x128 1 := cmpf .olt main_v24 main_v25
  let main_c_9 : IVec S_ 1 := constantI S_ 1 1#1
  let main_v27 : IVec S_ 1 := (fun x v => Host.reduce IntOp.andi x v reducesTo_S100x128_S_d0_1 h_S_) main_v26 main_c_9
  let main_v28 : IVec S_ 1 := andi main_v23 main_v27
  let main_v29 : FVec F S100x128 .f32 := Host.absf main_arg7
  let main_cst_10 : FVec F S_ .f32 := constant S_ .f32 0x7F800000#32
  let main_v30 : FVec F S100x128 .f32 := broadcastInDim S100x128 ![] bcast_S_S100x128 main_cst_10
  let main_v31 : IVec S100x128 1 := cmpf .olt main_v29 main_v30
  let main_c_11 : IVec S_ 1 := constantI S_ 1 1#1
  let main_v32 : IVec S_ 1 := (fun x v => Host.reduce IntOp.andi x v reducesTo_S100x128_S_d0_1 h_S_) main_v31 main_c_11
  let main_v33 : IVec S_ 1 := andi main_v28 main_v32
  fn_part2 (F := F) main_arg5 main_arg7 main_v33

def fn {F : FTy → Type} [FloatOps F] (main_arg0 : FVec F S128x128x56x56 .f32) (main_arg1 : IVec S128 32) (main_arg2 : FVec F S128 .f32) (main_arg3 : FVec F S128 .f32) (main_arg4 : FVec F S128 .f32) (main_arg5 : FVec F S128 .f32) (main_arg6 : FVec F S100x128 .f32) (main_arg7 : FVec F S100x128 .f32) : IVec S_ 1 :=
  let main_v0 : FVec F S128x128x56x56 .f32 := Host.absf main_arg0
  let main_cst : FVec F S_ .f32 := constant S_ .f32 0x7F800000#32
  let main_v1 : FVec F S128x128x56x56 .f32 := broadcastInDim S128x128x56x56 ![] bcast_S_S128x128x56x56 main_cst
  let main_v2 : IVec S128x128x56x56 1 := cmpf .olt main_v0 main_v1
  let main_c : IVec S_ 1 := constantI S_ 1 1#1
  let main_v3 : IVec S_ 1 := (fun x v => Host.reduce IntOp.andi x v reducesTo_S128x128x56x56_S_d0_1_2_3 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S128x128x56x56 : Shape := ⟨4, ![128, 128, 56, 56]⟩
abbrev S128 : Shape := ⟨1, ![128]⟩
abbrev S100x128 : Shape := ⟨2, ![100, 128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S128x128x1x1 : Shape := ⟨4, ![128, 128, 1, 1]⟩
abbrev S4x128x56x56 : Shape := ⟨4, ![4, 128, 56, 56]⟩
abbrev S4x128x1x1 : Shape := ⟨4, ![4, 128, 1, 1]⟩

abbrev nBuf : Space → Nat
  | .hbm => 58
  | .vmem => 8
  | .smem => 0
  | _ => 0

abbrev bufTy : (tb : Table) → Fin (tcTables nBuf tb) → BufTy
  | .hbm, ⟨0, _⟩ => ⟨S128x128x56x56, .f32⟩
  | .hbm, ⟨1, _⟩ => ⟨S128, .i32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100x128, .f32⟩
  | .hbm, ⟨7, _⟩ => ⟨S100x128, .f32⟩
  | .hbm, ⟨8, _⟩ => ⟨S1x128, .f32⟩
  | .hbm, ⟨9, _⟩ => ⟨S_, .f32⟩
  | .hbm, ⟨10, _⟩ => ⟨S1x128, .f32⟩
  | .hbm, ⟨11, _⟩ => ⟨S1x128, .f32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S_, .i32⟩
  | .hbm, ⟨16, _⟩ => ⟨S128, .i32⟩
  | .hbm, ⟨17, _⟩ => ⟨S128, .i32⟩
  | .hbm, ⟨18, _⟩ => ⟨S128, .i32⟩
  | .hbm, ⟨19, _⟩ => ⟨S128x1, .i32⟩
  | .hbm, ⟨20, _⟩ => ⟨S128x128, .f32⟩
  | .hbm, ⟨21, _⟩ => ⟨S_, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S1x128, .f32⟩
  | .hbm, ⟨27, _⟩ => ⟨S_, .f32⟩
  | .hbm, ⟨28, _⟩ => ⟨S1x128, .f32⟩
  | .hbm, ⟨29, _⟩ => ⟨S1x128, .f32⟩
  | .hbm, ⟨30, _⟩ => ⟨S_, .i32⟩
  | .hbm, ⟨31, _⟩ => ⟨S128, .i32⟩
  | .hbm, ⟨32, _⟩ => ⟨S128, .i1⟩
  | .hbm, ⟨33, _⟩ => ⟨S_, .i32⟩
  | .hbm, ⟨34, _⟩ => ⟨S128, .i32⟩
  | .hbm, ⟨35, _⟩ => ⟨S128, .i32⟩
  | .hbm, ⟨36, _⟩ => ⟨S128, .i32⟩
  | .hbm, ⟨37, _⟩ => ⟨S128x1, .i32⟩
  | .hbm, ⟨38, _⟩ => ⟨S128x128, .f32⟩
  | .hbm, ⟨39, _⟩ => ⟨S_, .f32⟩
  | .hbm, ⟨40, _⟩ => ⟨S128x128, .f32⟩
  | .hbm, ⟨41, _⟩ => ⟨S128x128, .f32⟩
  | .hbm, ⟨42, _⟩ => ⟨S128x128, .f32⟩
  | .hbm, ⟨43, _⟩ => ⟨S128x128, .f32⟩
  | .hbm, ⟨44, _⟩ => ⟨S_, .f32⟩
  | .hbm, ⟨45, _⟩ => ⟨S128x128, .f32⟩
  | .hbm, ⟨46, _⟩ => ⟨S128x128, .f32⟩
  | .hbm, ⟨47, _⟩ => ⟨S128x128, .f32⟩
  | .hbm, ⟨48, _⟩ => ⟨S1x128, .f32⟩
  | .hbm, ⟨49, _⟩ => ⟨S128x128, .f32⟩
  | .hbm, ⟨50, _⟩ => ⟨S128x128, .f32⟩
  | .hbm, ⟨51, _⟩ => ⟨S1x128, .f32⟩
  | .hbm, ⟨52, _⟩ => ⟨S128x128, .f32⟩
  | .hbm, ⟨53, _⟩ => ⟨S128x128, .f32⟩
  | .hbm, ⟨54, _⟩ => ⟨S128x128, .f32⟩
  | .hbm, ⟨55, _⟩ => ⟨S128x128x1x1, .f32⟩
  | .hbm, ⟨56, _⟩ => ⟨S128x128x1x1, .f32⟩
  | .hbm, ⟨57, _⟩ => ⟨S128x128x56x56, .f32⟩
  | .local _ .vmem, ⟨0, _⟩ => ⟨S4x128x56x56, .f32⟩
  | .local _ .vmem, ⟨1, _⟩ => ⟨S4x128x56x56, .f32⟩
  | .local _ .vmem, ⟨2, _⟩ => ⟨S4x128x1x1, .f32⟩
  | .local _ .vmem, ⟨3, _⟩ => ⟨S4x128x1x1, .f32⟩
  | .local _ .vmem, ⟨4, _⟩ => ⟨S4x128x1x1, .f32⟩
  | .local _ .vmem, ⟨5, _⟩ => ⟨S4x128x1x1, .f32⟩
  | .local _ .vmem, ⟨6, _⟩ => ⟨S4x128x56x56, .f32⟩
  | .local _ .vmem, ⟨7, _⟩ => ⟨S4x128x56x56, .f32⟩
  | _, _ => ⟨S128x128x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x128x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x56x56 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S128_S1x128_1 : S128.BroadcastsInDim S1x128 (![1] : Fin 1 → Fin S1x128.rank)
  bcast_S_S1x128 : S_.BroadcastsInDim S1x128 (![] : Fin 0 → Fin S1x128.rank)
  bcast_S_S128 : S_.BroadcastsInDim S128 (![] : Fin 0 → Fin S128.rank)
  bcast_S128_S128x1_0 : S128.BroadcastsInDim S128x1 (![0] : Fin 1 → Fin S128x1.rank)
  bcast_S_S128x128 : S_.BroadcastsInDim S128x128 (![] : Fin 0 → Fin S128x128.rank)
  bcast_S1x128_S128x128_0_1 : S1x128.BroadcastsInDim S128x128 (![0, 1] : Fin 2 → Fin S128x128.rank)
  shapeCasts_S128x128_S128x128x1x1 : S128x128.ShapeCasts S128x128x1x1
  inb_S4x128x56x56_S4x128x56x56_0_0_0_0 : ∀ a, (![0, 0, 0, 0] : Fin 4 → Nat) a + S4x128x56x56.size a ≤ S4x128x56x56.size a
  h_S4x128x56x56 : 0 < S4x128x56x56.numel
  inb_S4x128x1x1_S4x128x1x1_0_0_0_0 : ∀ a, (![0, 0, 0, 0] : Fin 4 → Nat) a + S4x128x1x1.size a ≤ S4x128x1x1.size a
  h_S4x128x1x1 : 0 < S4x128x1x1.numel
  shapeCasts_S4x128x1x1_S4x128x1x1 : S4x128x1x1.ShapeCasts S4x128x1x1
  broadcasts_S4x128x1x1_S4x128x56x56 : S4x128x1x1.Broadcasts S4x128x56x56
  gather_S100x128_S128x1_S128x128_1_0_n_n_0_1_1128_wf : GatherDims.WF S100x128 S128x1 S128x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x56x56.size a ≤ S128x128x56x56.size a
  hwx0_0 : ∀ i : grid0.Coords, EltTy.bits .f32 = 32 ∨ (Rect.block (s := S128x128x56x56) S4x128x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x128x1x1.size a ≤ S128x128x1x1.size a
  hwx0_1 : ∀ i : grid0.Coords, EltTy.bits .f32 = 32 ∨ (Rect.block (s := S128x128x1x1) S4x128x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x128x1x1.size a ≤ S128x128x1x1.size a
  hwx0_2 : ∀ i : grid0.Coords, EltTy.bits .f32 = 32 ∨ (Rect.block (s := S128x128x1x1) S4x128x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x128x56x56.size a ≤ S128x128x56x56.size a
  hwx0_3 : ∀ i : grid0.Coords, EltTy.bits .f32 = 32 ∨ (Rect.block (s := S128x128x56x56) S4x128x56x56.size (cc0_transform_3 i) (hinb0_3 i)).WholeWords (EltTy.packing .f32)

variable [Facts₀]

def gather_S100x128_S128x1_S128x128_1_0_n_n_0_1_1128 : GatherDims S100x128 S128x1 S128x128 where
  offsetDims := [1]
  collapsedSliceDims := [0]
  operandBatchingDims := []
  startIndicesBatchingDims := []
  startIndexMap := [0]
  indexVectorDim := 1
  sliceSizes := ![1, 128]
  wf := gather_S100x128_S128x1_S128x128_1_0_n_n_0_1_1128_wf

abbrev win0_0 : Pipeline.Window sig grid0 :=
  Pipeline.Window.ofSpec (Memref.whole main_arg0) S4x128x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S4x128x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S4x128x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S4x128x56x56.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x128x56x56 : Shape := ⟨4, ![128, 128, 56, 56]⟩
abbrev S128 : Shape := ⟨1, ![128]⟩
abbrev S100x128 : Shape := ⟨2, ![100, 128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S128x128x1x1 : Shape := ⟨4, ![128, 128, 1, 1]⟩
abbrev S1x128x1x1 : Shape := ⟨4, ![1, 128, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S128x128x56x56, .f32⟩
  | .hbm, ⟨1, _⟩ => ⟨S128, .i32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100x128, .f32⟩
  | .hbm, ⟨7, _⟩ => ⟨S100x128, .f32⟩
  | .hbm, ⟨8, _⟩ => ⟨S1x128, .f32⟩
  | .hbm, ⟨9, _⟩ => ⟨S_, .f32⟩
  | .hbm, ⟨10, _⟩ => ⟨S1x128, .f32⟩
  | .hbm, ⟨11, _⟩ => ⟨S1x128, .f32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S_, .i32⟩
  | .hbm, ⟨16, _⟩ => ⟨S128, .i32⟩
  | .hbm, ⟨17, _⟩ => ⟨S128, .i32⟩
  | .hbm, ⟨18, _⟩ => ⟨S128, .i32⟩
  | .hbm, ⟨19, _⟩ => ⟨S128x1, .i32⟩
  | .hbm, ⟨20, _⟩ => ⟨S128x128, .f32⟩
  | .hbm, ⟨21, _⟩ => ⟨S_, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S1x128, .f32⟩
  | .hbm, ⟨27, _⟩ => ⟨S_, .f32⟩
  | .hbm, ⟨28, _⟩ => ⟨S1x128, .f32⟩
  | .hbm, ⟨29, _⟩ => ⟨S1x128, .f32⟩
  | .hbm, ⟨30, _⟩ => ⟨S_, .i32⟩
  | .hbm, ⟨31, _⟩ => ⟨S128, .i32⟩
  | .hbm, ⟨32, _⟩ => ⟨S128, .i1⟩
  | .hbm, ⟨33, _⟩ => ⟨S_, .i32⟩
  | .hbm, ⟨34, _⟩ => ⟨S128, .i32⟩
  | .hbm, ⟨35, _⟩ => ⟨S128, .i32⟩
  | .hbm, ⟨36, _⟩ => ⟨S128, .i32⟩
  | .hbm, ⟨37, _⟩ => ⟨S128x1, .i32⟩
  | .hbm, ⟨38, _⟩ => ⟨S128x128, .f32⟩
  | .hbm, ⟨39, _⟩ => ⟨S_, .f32⟩
  | .hbm, ⟨40, _⟩ => ⟨S128x128, .f32⟩
  | .hbm, ⟨41, _⟩ => ⟨S128x128, .f32⟩
  | .hbm, ⟨42, _⟩ => ⟨S128x128, .f32⟩
  | .hbm, ⟨43, _⟩ => ⟨S128x128, .f32⟩
  | .hbm, ⟨44, _⟩ => ⟨S_, .f32⟩
  | .hbm, ⟨45, _⟩ => ⟨S128x128, .f32⟩
  | .hbm, ⟨46, _⟩ => ⟨S128x128, .f32⟩
  | .hbm, ⟨47, _⟩ => ⟨S128x128, .f32⟩
  | .hbm, ⟨48, _⟩ => ⟨S128x128x1x1, .f32⟩
  | .hbm, ⟨49, _⟩ => ⟨S128x128x56x56, .f32⟩
  | .hbm, ⟨50, _⟩ => ⟨S128x128x56x56, .f32⟩
  | .hbm, ⟨51, _⟩ => ⟨S128x128x1x1, .f32⟩
  | .hbm, ⟨52, _⟩ => ⟨S128x128x56x56, .f32⟩
  | .hbm, ⟨53, _⟩ => ⟨S128x128x56x56, .f32⟩
  | .hbm, ⟨54, _⟩ => ⟨S1x128x1x1, .f32⟩
  | .hbm, ⟨55, _⟩ => ⟨S128x128x56x56, .f32⟩
  | .hbm, ⟨56, _⟩ => ⟨S128x128x56x56, .f32⟩
  | .hbm, ⟨57, _⟩ => ⟨S1x128x1x1, .f32⟩
  | .hbm, ⟨58, _⟩ => ⟨S128x128x56x56, .f32⟩
  | .hbm, ⟨59, _⟩ => ⟨S128x128x56x56, .f32⟩
  | _, _ => ⟨S128x128x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S_S1x128 : S_.BroadcastsInDim S1x128 (![] : Fin 0 → Fin S1x128.rank)
  bcast_S_S128 : S_.BroadcastsInDim S128 (![] : Fin 0 → Fin S128.rank)
  bcast_S128_S128x1_0 : S128.BroadcastsInDim S128x1 (![0] : Fin 1 → Fin S128x1.rank)
  bcast_S_S128x128 : S_.BroadcastsInDim S128x128 (![] : Fin 0 → Fin S128x128.rank)
  bcast_S1x128_S128x128_0_1 : S1x128.BroadcastsInDim S128x128 (![0, 1] : Fin 2 → Fin S128x128.rank)
  bcast_S128x128_S128x128x1x1_0_1 : S128x128.BroadcastsInDim S128x128x1x1 (![0, 1] : Fin 2 → Fin S128x128x1x1.rank)
  bcast_S128x128x1x1_S128x128x56x56_0_1_2_3 : S128x128x1x1.BroadcastsInDim S128x128x56x56 (![0, 1, 2, 3] : Fin 4 → Fin S128x128x56x56.rank)
  bcast_S128_S1x128x1x1_1 : S128.BroadcastsInDim S1x128x1x1 (![1] : Fin 1 → Fin S1x128x1x1.rank)
  bcast_S1x128x1x1_S128x128x56x56_0_1_2_3 : S1x128x1x1.BroadcastsInDim S128x128x56x56 (![0, 1, 2, 3] : Fin 4 → Fin S128x128x56x56.rank)
  gather_S100x128_S128x1_S128x128_1_0_n_n_0_1_1128_wf : GatherDims.WF S100x128 S128x1 S128x128 [1] [0] [] [0] [] 1 ![1, 128]

variable [Facts₀]

def gather_S100x128_S128x1_S128x128_1_0_n_n_0_1_1128 : GatherDims S100x128 S128x1 S128x128 where
  offsetDims := [1]
  collapsedSliceDims := [0]
  operandBatchingDims := []
  startIndicesBatchingDims := []
  startIndexMap := [0]
  indexVectorDim := 1
  sliceSizes := ![1, 128]
  wf := gather_S100x128_S128x1_S128x128_1_0_n_n_0_1_1128_wf

class Facts : Prop extends Facts₀ where

variable [Facts]
-- ==== Proof.LibMoments.lean ====
/-
  General lemmas on Mathlib's extended reals: coercion of finite sums, the two forms of a
  variance (mean of squares minus squared mean, against mean of squared deviations) over REAL
  data, the closure of "is a real number" under the arithmetic used downstream, the collapse
  of a tile-by-tile accumulation into one sum, and one-hot weighted sums as filtered sums.
-/
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.BigOperators.Fin
import Mathlib.Analysis.SpecialFunctions.Pow.Real
import Mathlib.Tactic.Ring
import Mathlib.Tactic.FieldSimp

namespace Cert.LibMoments

open scoped BigOperators
open Idealize.ShloMosaic

/-! ### 1. Coercion of a finite sum -/

/-- The coercion of the reals into the extended reals carries a finite sum (over a finset) to
    the sum of the coercions. -/
theorem coe_finset_sum {ι : Type*} (s : Finset ι) (r : ι → ℝ) :
    ((∑ i ∈ s, r i : ℝ) : EReal) = ∑ i ∈ s, ((r i : ℝ) : EReal) := by
  classical
  induction s using Finset.induction_on with
  | empty => simp
  | insert a s ha ih => rw [Finset.sum_insert ha, Finset.sum_insert ha, EReal.coe_add, ih]

/-- The coercion carries a sum over a finite type to the sum of the coercions. -/
theorem coe_sum {ι : Type*} [Fintype ι] (r : ι → ℝ) :
    ((∑ i, r i : ℝ) : EReal) = ∑ i, ((r i : ℝ) : EReal) :=
  coe_finset_sum Finset.univ r

/-- The same with an initial summand 0: 0 plus the sum of the coercions is the coercion of
    the real sum. -/
theorem coe_sum_zero_add {ι : Type*} [Fintype ι] (r : ι → ℝ) :
    (0 : EReal) + ∑ i, ((r i : ℝ) : EReal) = ((∑ i, r i : ℝ) : EReal) := by
  rw [zero_add, coe_sum]

/-! ### 4. Being a real number -/

/-- An extended real IS REAL when it is the coercion of a real number. -/
def IsReal (x : EReal) : Prop := ∃ r : ℝ, x = (r : EReal)

/-- Being real is being neither the top nor the bottom element. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨h1, h2⟩; exact ⟨x.toReal, (EReal.coe_toReal h1 h2).symm⟩

namespace IsReal

/-- A coercion is real. -/
theorem coe (r : ℝ) : IsReal (r : EReal) := ⟨r, rfl⟩
/-- Zero is real. -/
theorem zero : IsReal 0 := ⟨0, EReal.coe_zero.symm⟩
/-- One is real. -/
theorem one : IsReal 1 := ⟨1, EReal.coe_one.symm⟩
/-- A natural number is real. -/
theorem natCast (n : ℕ) : IsReal (n : EReal) := ⟨(n : ℝ), (EReal.coe_coe_eq_natCast n).symm⟩

variable {x y : EReal}

/-- A real is not the top element. -/
theorem ne_top (hx : IsReal x) : x ≠ ⊤ := (isReal_iff.1 hx).1
/-- A real is not the bottom element. -/
theorem ne_bot (hx : IsReal x) : x ≠ ⊥ := (isReal_iff.1 hx).2

/-- The sum of two reals is real. -/
theorem add (hx : IsReal x) (hy : IsReal y) : IsReal (x + y) := by
  obtain ⟨a, rfl⟩ := hx; obtain ⟨b, rfl⟩ := hy; exact ⟨a + b, (EReal.coe_add a b).symm⟩
/-- The difference of two reals is real. -/
theorem sub (hx : IsReal x) (hy : IsReal y) : IsReal (x - y) := by
  obtain ⟨a, rfl⟩ := hx; obtain ⟨b, rfl⟩ := hy; exact ⟨a - b, (EReal.coe_sub a b).symm⟩
/-- The product of two reals is real. -/
theorem mul (hx : IsReal x) (hy : IsReal y) : IsReal (x * y) := by
  obtain ⟨a, rfl⟩ := hx; obtain ⟨b, rfl⟩ := hy; exact ⟨a * b, (EReal.coe_mul a b).symm⟩
/-- The opposite of a real is real. -/
theorem neg (hx : IsReal x) : IsReal (-x) := by
  obtain ⟨a, rfl⟩ := hx; exact ⟨-a, (EReal.coe_neg a).symm⟩
/-- The larger of two reals is real. -/
theorem max (hx : IsReal x) (hy : IsReal y) : IsReal (max x y) := by
  rcases le_total x y with h | h
  · rwa [max_eq_right h]
  · rwa [max_eq_left h]
/-- The smaller of two reals is real. -/
theorem min (hx : IsReal x) (hy : IsReal y) : IsReal (min x y) := by
  rcases le_total x y with h | h
  · rwa [min_eq_left h]
  · rwa [min_eq_right h]
/-- The extended reals' inverse of a real is real (the inverse of 0 is 0 there). -/
theorem inv (hx : IsReal x) : IsReal x⁻¹ := by
  obtain ⟨a, rfl⟩ := hx; exact ⟨a⁻¹, (EReal.coe_inv a).symm⟩
/-- A real times the inverse of a real is real. -/
theorem mul_inv_coe (hx : IsReal x) (c : ℝ) : IsReal (x * ((c : ℝ) : EReal)⁻¹) :=
  hx.mul (IsReal.coe c).inv

/-- A finite sum of reals is real. -/
theorem finset_sum {ι : Type*} (s : Finset ι) (f : ι → EReal) (h : ∀ i ∈ s, IsReal (f i)) :
    IsReal (∑ i ∈ s, f i) :=
  Finset.sum_induction f IsReal (fun _ _ => IsReal.add) IsReal.zero h
/-- A sum of reals over a finite type is real. -/
theorem sum {ι : Type*} [Fintype ι] (f : ι → EReal) (h : ∀ i, IsReal (f i)) :
    IsReal (∑ i, f i) :=
  finset_sum _ f fun i _ => h i
/-- An initial 0 plus a sum of reals over a finite type is real. -/
theorem zero_add_sum {ι : Type*} [Fintype ι] (f : ι → EReal) (h : ∀ i, IsReal (f i)) :
    IsReal (0 + ∑ i, f i) :=
  IsReal.zero.add (sum f h)
/-- A real initial value plus a sum of reals over a finite type is real. -/
theorem add_sum {ι : Type*} [Fintype ι] {z : EReal} (hz : IsReal z) (f : ι → EReal)
    (h : ∀ i, IsReal (f i)) : IsReal (z + ∑ i, f i) :=
  hz.add (sum f h)

end IsReal

/-- The ideal quotient by a nonzero real is the product with the extended reals' inverse. -/
theorem div_coe_eq_mul_inv {c : ℝ} (hc : c ≠ 0) (x : EReal) :
    Ideal.div x ((c : ℝ) : EReal) = x * ((c : ℝ) : EReal)⁻¹ := by
  rw [Ideal.div, if_neg (by exact_mod_cast hc)]

/-- The ideal quotient of a real by a nonzero real is real. -/
theorem IsReal.div_coe {x : EReal} (hx : IsReal x) {c : ℝ} (hc : c ≠ 0) :
    IsReal (Ideal.div x ((c : ℝ) : EReal)) := by
  rw [div_coe_eq_mul_inv hc]; exact hx.mul_inv_coe c

/-- The ideal quotient of two coerced reals, the divisor nonzero, is the coerced real quotient. -/
theorem div_coe_coe (a : ℝ) {c : ℝ} (hc : c ≠ 0) :
    Ideal.div ((a : ℝ) : EReal) ((c : ℝ) : EReal) = ((a / c : ℝ) : EReal) := by
  rw [div_coe_eq_mul_inv hc, ← EReal.coe_inv, ← EReal.coe_mul, div_eq_mul_inv]

/-- The ideal reciprocal square root of a positive real v is the coercion of (√v)⁻¹. -/
theorem rsqrt_coe_pos {v : ℝ} (hv : 0 < v) :
    Ideal.rsqrt ((v : ℝ) : EReal) = (((Real.sqrt v)⁻¹ : ℝ) : EReal) := by
  rw [Ideal.rsqrt_coe, if_neg (not_lt.2 hv.le), if_neg hv.ne']

/-- The ideal reciprocal square root of a positive real is real. -/
theorem IsReal.rsqrt_coe_pos {v : ℝ} (hv : 0 < v) : IsReal (Ideal.rsqrt ((v : ℝ) : EReal)) :=
  ⟨_, Cert.LibMoments.rsqrt_coe_pos hv⟩

/-- The ideal reciprocal square root of a positive real is a positive real. -/
theorem rsqrt_coe_pos' {v : ℝ} (hv : 0 < v) :
    ∃ w : ℝ, 0 < w ∧ Ideal.rsqrt ((v : ℝ) : EReal) = (w : EReal) :=
  ⟨(Real.sqrt v)⁻¹, inv_pos.2 (Real.sqrt_pos.2 hv), rsqrt_coe_pos hv⟩

/-! ### 2. The two forms of a variance -/

section Variance
variable {ι : Type*} [Fintype ι]

/-- Over the reals: the mean of the squares minus the square of the mean is the mean of the
    squared deviations from the mean (N the number of data, nonzero). -/
theorem real_variance_two_forms (r : ι → ℝ) (N : ℝ) (hN : N ≠ 0)
    (hcard : (Fintype.card ι : ℝ) = N) :
    (∑ i, r i * r i) * N⁻¹ - (∑ i, r i) * N⁻¹ * ((∑ i, r i) * N⁻¹)
      = (∑ i, (r i - (∑ i, r i) * N⁻¹) * (r i - (∑ i, r i) * N⁻¹)) * N⁻¹ := by
  set S := ∑ i, r i with hS
  set μ := S * N⁻¹ with hμ
  have h1 : ∑ i, (r i - μ) * (r i - μ) = (∑ i, r i * r i) - 2 * μ * S + N * (μ * μ) := by
    have h2 : ∀ i, (r i - μ) * (r i - μ) = r i * r i - 2 * μ * r i + μ * μ := fun i => by ring
    simp only [h2]
    rw [Finset.sum_add_distrib, Finset.sum_sub_distrib, ← Finset.mul_sum, Finset.sum_const,
      Finset.card_univ, nsmul_eq_mul, hcard]
  have h3 : S = μ * N := by rw [hμ]; field_simp
  rw [h1, h3]
  field_simp
  ring

/-- Over the extended reals, for REAL data r: with S the sum of the data, Q the sum of their
    squares and μ = S · N⁻¹, one has Q · N⁻¹ − μ · μ = (∑ (r − μ) · (r − μ)) · N⁻¹
    (N the number of data, nonzero). -/
theorem variance_two_forms (r : ι → ℝ) (N : ℝ) (hN : N ≠ 0) (hcard : (Fintype.card ι : ℝ) = N) :
    (∑ i, ((r i : ℝ) : EReal) * ((r i : ℝ) : EReal)) * ((N : ℝ) : EReal)⁻¹
        - (∑ i, ((r i : ℝ) : EReal)) * ((N : ℝ) : EReal)⁻¹
          * ((∑ i, ((r i : ℝ) : EReal)) * ((N : ℝ) : EReal)⁻¹)
      = (∑ i, (((r i : ℝ) : EReal) - (∑ i, ((r i : ℝ) : EReal)) * ((N : ℝ) : EReal)⁻¹)
            * (((r i : ℝ) : EReal) - (∑ i, ((r i : ℝ) : EReal)) * ((N : ℝ) : EReal)⁻¹))
          * ((N : ℝ) : EReal)⁻¹ := by
  simp only [← EReal.coe_mul, ← coe_sum, ← EReal.coe_inv, ← EReal.coe_sub]
  rw [real_variance_two_forms r N hN hcard]

/-- The same law with each sum preceded by the initial value 0 and each division written as the
    ideal quotient by the real N. -/
theorem variance_two_forms_div (r : ι → ℝ) (N : ℝ) (hN : N ≠ 0)
    (hcard : (Fintype.card ι : ℝ) = N) :
    Ideal.div (0 + ∑ i, ((r i : ℝ) : EReal) * ((r i : ℝ) : EReal)) ((N : ℝ) : EReal)
        - Ideal.div (0 + ∑ i, ((r i : ℝ) : EReal)) ((N : ℝ) : EReal)
          * Ideal.div (0 + ∑ i, ((r i : ℝ) : EReal)) ((N : ℝ) : EReal)
      = Ideal.div
          (0 + ∑ i, (((r i : ℝ) : EReal) - Ideal.div (0 + ∑ i, ((r i : ℝ) : EReal)) ((N : ℝ) : EReal))
            * (((r i : ℝ) : EReal) - Ideal.div (0 + ∑ i, ((r i : ℝ) : EReal)) ((N : ℝ) : EReal)))
          ((N : ℝ) : EReal) := by
  simp only [zero_add, div_coe_eq_mul_inv hN]
  exact variance_two_forms r N hN hcard

/-- The law for extended-real data every entry of which is real, with the sum S, the sum of
    squares Q and the mean μ named by equations (so that a caller may present them in any
    syntactic form, for instance with an initial 0). -/
theorem variance_two_forms_of_isReal (x : ι → EReal) (hx : ∀ i, IsReal (x i)) (N : ℝ) (hN : N ≠ 0)
    (hcard : (Fintype.card ι : ℝ) = N) (S Q μ : EReal) (hS : S = ∑ i, x i)
    (hQ : Q = ∑ i, x i * x i) (hμ : μ = S * ((N : ℝ) : EReal)⁻¹) :
    Q * ((N : ℝ) : EReal)⁻¹ - μ * μ = (∑ i, (x i - μ) * (x i - μ)) * ((N : ℝ) : EReal)⁻¹ := by
  choose r hr using hx
  obtain rfl : x = fun i => ((r i : ℝ) : EReal) := funext hr
  subst hμ; subst hS; subst hQ
  exact variance_two_forms r N hN hcard

/-- The law for extended-real data every entry of which is real, in the shape "initial 0 plus
    the sum, ideal quotient by N". -/
theorem variance_two_forms_div_of_isReal (x : ι → EReal) (hx : ∀ i, IsReal (x i)) (N : ℝ)
    (hN : N ≠ 0) (hcard : (Fintype.card ι : ℝ) = N) :
    Ideal.div (0 + ∑ i, x i * x i) ((N : ℝ) : EReal)
        - Ideal.div (0 + ∑ i, x i) ((N : ℝ) : EReal) * Ideal.div (0 + ∑ i, x i) ((N : ℝ) : EReal)
      = Ideal.div
          (0 + ∑ i, (x i - Ideal.div (0 + ∑ i, x i) ((N : ℝ) : EReal))
            * (x i - Ideal.div (0 + ∑ i, x i) ((N : ℝ) : EReal)))
          ((N : ℝ) : EReal) := by
  choose r hr using hx
  obtain rfl : x = fun i => ((r i : ℝ) : EReal) := funext hr
  exact variance_two_forms_div r N hN hcard

/-! ### 3. The variance is a nonnegative real -/

/-- The mean of the squared deviations of real data from a real centre m, over a positive count
    N, is the coercion of a nonnegative real. -/
theorem centered_mean_sq_coe (r : ι → ℝ) (m : ℝ) (N : ℝ) (hN : 0 < N) :
    ∃ v : ℝ, 0 ≤ v ∧
      (∑ i, (((r i : ℝ) : EReal) - ((m : ℝ) : EReal)) * (((r i : ℝ) : EReal) - ((m : ℝ) : EReal)))
        * ((N : ℝ) : EReal)⁻¹ = ((v : ℝ) : EReal) := by
  refine ⟨(∑ i, (r i - m) * (r i - m)) * N⁻¹, ?_, ?_⟩
  · exact mul_nonneg (Finset.sum_nonneg fun i _ => mul_self_nonneg _) (inv_nonneg.2 hN.le)
  · simp only [← EReal.coe_sub, ← EReal.coe_mul, ← coe_sum, ← EReal.coe_inv]

/-- The same for extended-real data and centre, all real. -/
theorem variance_nonneg (x : ι → EReal) (hx : ∀ i, IsReal (x i)) (μ : EReal) (hμ : IsReal μ)
    (N : ℝ) (hN : 0 < N) :
    ∃ v : ℝ, 0 ≤ v ∧ (∑ i, (x i - μ) * (x i - μ)) * ((N : ℝ) : EReal)⁻¹ = ((v : ℝ) : EReal) := by
  choose r hr using hx
  obtain rfl : x = fun i => ((r i : ℝ) : EReal) := funext hr
  obtain ⟨m, rfl⟩ := hμ
  exact centered_mean_sq_coe r m N hN

/-- The same in the shape "initial 0 plus the sum, ideal quotient by N". -/
theorem variance_div_nonneg (x : ι → EReal) (hx : ∀ i, IsReal (x i)) (μ : EReal) (hμ : IsReal μ)
    (N : ℝ) (hN : 0 < N) :
    ∃ v : ℝ, 0 ≤ v ∧
      Ideal.div (0 + ∑ i, (x i - μ) * (x i - μ)) ((N : ℝ) : EReal) = ((v : ℝ) : EReal) := by
  rw [zero_add, div_coe_eq_mul_inv hN.ne']
  exact variance_nonneg x hx μ hμ N hN

/-- Mean of squares minus squared mean, for real data, is the coercion of a nonnegative real. -/
theorem raw_variance_nonneg (x : ι → EReal) (hx : ∀ i, IsReal (x i)) (N : ℝ) (hN : 0 < N)
    (hcard : (Fintype.card ι : ℝ) = N) :
    ∃ v : ℝ, 0 ≤ v ∧
      (∑ i, x i * x i) * ((N : ℝ) : EReal)⁻¹
        - (∑ i, x i) * ((N : ℝ) : EReal)⁻¹ * ((∑ i, x i) * ((N : ℝ) : EReal)⁻¹)
        = ((v : ℝ) : EReal) := by
  rw [variance_two_forms_of_isReal x hx N hN.ne' hcard _ _ _ rfl rfl rfl]
  exact variance_nonneg x hx _ ((IsReal.sum x hx).mul_inv_coe N) N hN

/-- The same in the shape "initial 0 plus the sum, ideal quotient by N". -/
theorem raw_variance_div_nonneg (x : ι → EReal) (hx : ∀ i, IsReal (x i)) (N : ℝ) (hN : 0 < N)
    (hcard : (Fintype.card ι : ℝ) = N) :
    ∃ v : ℝ, 0 ≤ v ∧
      Ideal.div (0 + ∑ i, x i * x i) ((N : ℝ) : EReal)
        - Ideal.div (0 + ∑ i, x i) ((N : ℝ) : EReal) * Ideal.div (0 + ∑ i, x i) ((N : ℝ) : EReal)
        = ((v : ℝ) : EReal) := by
  simp only [zero_add, div_coe_eq_mul_inv hN.ne']
  exact raw_variance_nonneg x hx N hN hcard

/-- A nonnegative real plus a positive real ε is the coercion of a positive real. -/
theorem add_eps_pos {y : EReal} (hy : ∃ v : ℝ, 0 ≤ v ∧ y = ((v : ℝ) : EReal)) {ε : ℝ}
    (hε : 0 < ε) : ∃ w : ℝ, 0 < w ∧ y + ((ε : ℝ) : EReal) = ((w : ℝ) : EReal) := by
  obtain ⟨v, hv, rfl⟩ := hy
  exact ⟨v + ε, add_pos_of_nonneg_of_pos hv hε, (EReal.coe_add v ε).symm⟩

/-- The ideal reciprocal square root of a nonnegative real plus a positive real ε is a positive
    real. -/
theorem rsqrt_add_eps_pos {y : EReal} (hy : ∃ v : ℝ, 0 ≤ v ∧ y = ((v : ℝ) : EReal)) {ε : ℝ}
    (hε : 0 < ε) :
    ∃ w : ℝ, 0 < w ∧ Ideal.rsqrt (y + ((ε : ℝ) : EReal)) = ((w : ℝ) : EReal) := by
  obtain ⟨u, hu, e⟩ := add_eps_pos hy hε
  rw [e]; exact rsqrt_coe_pos' hu

/-- Hence it is real. -/
theorem IsReal.rsqrt_add_eps {y : EReal} (hy : ∃ v : ℝ, 0 ≤ v ∧ y = ((v : ℝ) : EReal)) {ε : ℝ}
    (hε : 0 < ε) : IsReal (Ideal.rsqrt (y + ((ε : ℝ) : EReal))) := by
  obtain ⟨w, _, e⟩ := rsqrt_add_eps_pos hy hε
  exact ⟨w, e⟩

end Variance

/-! ### 5. Tile-by-tile accumulation -/

section Tiles
variable {M : Type*} [AddCommMonoid M]

/-- Left-nested accumulation of a sequence s onto an initial value z: after t steps it is
    ((z + s 0) + s 1) + … + s (t-1). -/
def acc (z : M) (s : ℕ → M) : ℕ → M
  | 0 => z
  | t + 1 => acc z s t + s t

/-- Before any step the accumulation is the initial value. -/
@[simp] theorem acc_zero (z : M) (s : ℕ → M) : acc z s 0 = z := rfl
/-- One more step adds the next term on the right. -/
@[simp] theorem acc_succ (z : M) (s : ℕ → M) (t : ℕ) : acc z s (t + 1) = acc z s t + s t := rfl

/-- After A steps the accumulation is the initial value plus the sum of the first A terms. -/
theorem acc_eq_add_sum_range (z : M) (s : ℕ → M) (A : ℕ) :
    acc z s A = z + ∑ t ∈ Finset.range A, s t := by
  induction A with
  | zero => simp
  | succ n ih => rw [acc_succ, ih, Finset.sum_range_succ, add_assoc]

/-- The same with the sum taken over the finite type of the first A naturals. -/
theorem acc_eq_add_sum_fin (z : M) (s : ℕ → M) (A : ℕ) :
    acc z s A = z + ∑ t : Fin A, s t := by
  rw [acc_eq_add_sum_range, Finset.sum_range]

/-- From the initial value 0 the accumulation is 0 plus the sum of the first A terms. -/
theorem acc_zero_eq (s : ℕ → M) (A : ℕ) : acc 0 s A = 0 + ∑ t : Fin A, s t :=
  acc_eq_add_sum_fin 0 s A

/-- Tiles: if the t-th term is 0 plus the sum of the entries of the t-th tile, and the tiles
    (t, j) enumerate an index type ι through a bijection e, then accumulating the A tile sums
    onto z gives z plus the sum of ALL entries. No finiteness of the values is needed. -/
theorem acc_tiles_equiv {ι κ : Type*} [Fintype ι] [Fintype κ] (A : ℕ) (e : Fin A × κ ≃ ι)
    (a : ι → M) (s : ℕ → M) (hs : ∀ t : Fin A, s t = 0 + ∑ j : κ, a (e (t, j))) (z : M) :
    acc z s A = z + ∑ i : ι, a i := by
  rw [acc_eq_add_sum_fin]
  congr 1
  rw [← Equiv.sum_comp e a, Fintype.sum_prod_type]
  exact Finset.sum_congr rfl fun t _ => by rw [hs t, zero_add]

/-- Tiles indexed by a pair (tile, position in tile). -/
theorem acc_tiles_prod (A B : ℕ) (a : Fin A × Fin B → M) (s : ℕ → M)
    (hs : ∀ t : Fin A, s t = 0 + ∑ j : Fin B, a (t, j)) (z : M) :
    acc z s A = z + ∑ p : Fin A × Fin B, a p :=
  acc_tiles_equiv A (Equiv.refl _) a s hs z

/-- Tiles of a flat index: entry number j + B * t is position j of tile t. -/
theorem acc_tiles_flat (A B : ℕ) (a : Fin (A * B) → M) (s : ℕ → M)
    (hs : ∀ t : Fin A, s t = 0 + ∑ j : Fin B, a (finProdFinEquiv (t, j))) (z : M) :
    acc z s A = z + ∑ k : Fin (A * B), a k :=
  acc_tiles_equiv A finProdFinEquiv a s hs z

/-- From the initial value 0: the accumulated tile sums are 0 plus the sum of all entries. -/
theorem acc_zero_tiles_flat (A B : ℕ) (a : Fin (A * B) → M) (s : ℕ → M)
    (hs : ∀ t : Fin A, s t = 0 + ∑ j : Fin B, a (finProdFinEquiv (t, j))) :
    acc 0 s A = 0 + ∑ k : Fin (A * B), a k :=
  acc_tiles_flat A B a s hs 0

end Tiles

/-! ### 6. One-hot weighted sums -/

section OneHot
variable {ι : Type*}

/-- A sum weighted by the indicator (1 where p holds, 0 elsewhere) of a predicate is the sum over
    the indices where p holds: it uses only 1 · x = x and 0 · x = 0, which hold for every
    extended real, the infinities included. -/
theorem finset_sum_onehot_mul (s : Finset ι) (p : ι → Prop) [DecidablePred p] (f : ι → EReal) :
    ∑ i ∈ s, (if p i then (1 : EReal) else 0) * f i = ∑ i ∈ s.filter p, f i := by
  rw [Finset.sum_filter]
  refine Finset.sum_congr rfl fun i _ => ?_
  by_cases h : p i
  · rw [if_pos h, if_pos h, one_mul]
  · rw [if_neg h, if_neg h, zero_mul]

/-- The same over a finite type. -/
theorem sum_onehot_mul [Fintype ι] (p : ι → Prop) [DecidablePred p] (f : ι → EReal) :
    ∑ i, (if p i then (1 : EReal) else 0) * f i = ∑ i ∈ Finset.univ.filter p, f i :=
  finset_sum_onehot_mul Finset.univ p f

/-- With the weight on the right. -/
theorem sum_mul_onehot [Fintype ι] (p : ι → Prop) [DecidablePred p] (f : ι → EReal) :
    ∑ i, f i * (if p i then (1 : EReal) else 0) = ∑ i ∈ Finset.univ.filter p, f i := by
  rw [Finset.sum_filter]
  refine Finset.sum_congr rfl fun i _ => ?_
  by_cases h : p i
  · rw [if_pos h, if_pos h, mul_one]
  · rw [if_neg h, if_neg h, mul_zero]

end OneHot

/-- The one-hot weights themselves sum to the number of indices where the predicate holds, an
    extended real that is a natural number. -/
theorem sum_onehot_one {ι : Type*} [Fintype ι] (p : ι → Prop) [DecidablePred p] :
    ∑ i, (if p i then (1 : EReal) else 0) * 1 = (((Finset.univ.filter p).card : ℕ) : EReal) := by
  rw [sum_onehot_mul, Finset.sum_const, nsmul_one]

/-- The count above, as an extended real, is real and nonnegative; its maximum with 1 is a
    real at least 1. -/
theorem max_natCast_one (n : ℕ) :
    ∃ c : ℝ, 1 ≤ c ∧ max ((n : ℕ) : EReal) 1 = ((c : ℝ) : EReal) := by
  refine ⟨max (n : ℝ) 1, le_max_right _ _, ?_⟩
  rw [← EReal.coe_coe_eq_natCast, ← EReal.coe_one]
  rcases le_total (n : ℝ) 1 with h | h
  · rw [max_eq_right h, max_eq_right (EReal.coe_le_coe_iff.2 h)]
  · rw [max_eq_left h, max_eq_left (EReal.coe_le_coe_iff.2 h)]

/-! ### Further closure facts -/

/-- The ideal quotient of a real by a nonzero real (both given as extended reals) is real. -/
theorem IsReal.div {x y : EReal} (hx : IsReal x) (hy : IsReal y) (hy0 : y ≠ 0) :
    IsReal (Ideal.div x y) := by
  obtain ⟨c, rfl⟩ := hy
  exact hx.div_coe (by rintro rfl; exact hy0 EReal.coe_zero)

/-- A choice between two reals is real. -/
theorem IsReal.ite {x y : EReal} (c : Prop) [Decidable c] (hx : IsReal x) (hy : IsReal y) :
    IsReal (if c then x else y) := by
  by_cases h : c
  · rwa [if_pos h]
  · rwa [if_neg h]

/-- The positive part of a real is real. -/
theorem IsReal.max_zero {x : EReal} (hx : IsReal x) : IsReal (Max.max x 0) := hx.max IsReal.zero

/-- An accumulated contraction, an initial real plus a finite sum of products of reals, is
    real. -/
theorem IsReal.add_sum_mul {κ : Type*} [Fintype κ] {z : EReal} (hz : IsReal z) (a b : κ → EReal)
    (ha : ∀ k, IsReal (a k)) (hb : ∀ k, IsReal (b k)) : IsReal (z + ∑ k, a k * b k) :=
  hz.add_sum _ fun k => (ha k).mul (hb k)

/-- A left-nested accumulation of reals onto a real is real at every step. -/
theorem IsReal.acc {z : EReal} (hz : IsReal z) (s : ℕ → EReal) (A : ℕ)
    (hs : ∀ t, t < A → IsReal (s t)) : IsReal (acc z s A) := by
  induction A with
  | zero => simpa using hz
  | succ n ih =>
    rw [acc_succ]
    exact (ih fun t ht => hs t (Nat.lt_succ_of_lt ht)).add (hs n (Nat.lt_succ_self n))

/-- Tiles whose t-th term is the bare sum of the t-th tile (no initial 0): accumulating the A
    tile sums onto z gives z plus the sum of all entries. -/
theorem acc_tiles_equiv' {M : Type*} [AddCommMonoid M] {ι κ : Type*} [Fintype ι] [Fintype κ]
    (A : ℕ) (e : Fin A × κ ≃ ι) (a : ι → M) (s : ℕ → M)
    (hs : ∀ t : Fin A, s t = ∑ j : κ, a (e (t, j))) (z : M) :
    acc z s A = z + ∑ i : ι, a i :=
  acc_tiles_equiv A e a s (fun t => by rw [hs t, zero_add]) z

/-- A sum of ones over the indices where a predicate holds is their number. -/
theorem sum_filter_one {ι : Type*} [Fintype ι] (p : ι → Prop) [DecidablePred p] :
    ∑ _i ∈ Finset.univ.filter p, (1 : EReal) = (((Finset.univ.filter p).card : ℕ) : EReal) := by
  rw [Finset.sum_const, nsmul_one]

end Cert.LibMoments
-- ==== Proof.AffineLaw.lean ====
/-
  Class-conditional batch normalisation at inference, entry by entry, in two arrangements.

  For sample p and channel q put  μ = ½·gm[q] + ½·mg[p,q]  (the interpolated mean),
  v = ½·gv[q] + ½·vg[p,q]  (the interpolated variance) and  r = (v + ε)^(-1/2), where mg and vg are the
  rows of the per-class tables picked by the sample's label.  One arrangement folds the statistics into
  an affine map of the data,

      x · (r · w[q]) + (b[q] − μ · (r · w[q])),

  the other centres, scales, then applies the affine parameters,

      ((x − μ) · r) · w[q] + b[q].

  Over the real numbers the two are equal by distributivity.  On the extended reals distributivity
  fails at the infinities, so the law is proved for REAL data with NONNEGATIVE variances: then
  v + ε > 0, r is the positive real (√(v + ε))⁻¹, every intermediate value is a real number, and the
  identity is the one of the real field.
-/
import proofs.«101528_j76192719831881_1_alg».proof.Proof.LibMoments
import Idealize.ShloMosaic.PureOps.Ideal
import Idealize.ShloMosaic.Lib.ValueIdx
import Mathlib.Tactic.Ring
import Mathlib.Tactic.Linarith
import Mathlib.Tactic.NormNum

noncomputable section

namespace Cert.ClassNorm

open Idealize.ShloMosaic Idealize.ShloMosaic.ValueIdx Cert.LibMoments

/-- The data: samples × channels × height × width. -/
abbrev SData : Shape := ⟨4, ![128, 128, 56, 56]⟩
/-- Per-sample, per-channel statistics. -/
abbrev SStat : Shape := ⟨2, ![128, 128]⟩
/-- Per-channel parameters. -/
abbrev SChan : Shape := ⟨1, ![128]⟩

/-- The interpolation weight ½, as the single-precision word both programs carry. -/
abbrev half : EReal := Ideal.ofBits .f32 0x3F000000#32
/-- The variance offset ε, as the single-precision word both programs carry. -/
abbrev eps : EReal := Ideal.ofBits .f32 0x3727C5AC#32

/-- The word 3F000000 denotes the real ½. -/
theorem ofBits_half : Ideal.ofBits .f32 0x3F000000#32 = (((1 / 2 : ℝ)) : EReal) := by
  simp [Ideal.ofBits, Ideal.ieee, -EReal.coe_mul] <;> norm_num

/-- The word 3727C5AC denotes the positive real 10995116 · 2⁻⁴⁰. -/
theorem ofBits_eps : Ideal.ofBits .f32 0x3727C5AC#32 = (((10995116 : ℝ) * (2 : ℝ) ^ (-40 : ℤ) : ℝ) : EReal) := by
  simp [Ideal.ofBits, Ideal.ieee, -EReal.coe_mul] <;> norm_num

theorem eps_pos : (0 : ℝ) < (10995116 : ℝ) * (2 : ℝ) ^ (-40 : ℤ) := by positivity

theorem half_eq : half = (((1 / 2 : ℝ)) : EReal) := ofBits_half
theorem eps_eq : eps = (((10995116 : ℝ) * (2 : ℝ) ^ (-40 : ℤ) : ℝ) : EReal) := ofBits_eps

/-- The interpolated mean ½·g + ½·c. -/
def interp (g c : EReal) : EReal := half * g + half * c

/-- The reciprocal standard deviation (½·gv + ½·vg + ε)^(-1/2). -/
def invStd (gv vg : EReal) : EReal := Ideal.rsqrt (interp gv vg + eps)

/-- The folded arrangement: x · scale + shift with scale = r·w and shift = b − μ·scale. -/
def foldedElt (x w b gm gv mg vg : EReal) : EReal :=
  x * (invStd gv vg * w) + (b - interp gm mg * (invStd gv vg * w))

/-- The direct arrangement: ((x − μ) · r) · w + b. -/
def directElt (x w b gm gv mg vg : EReal) : EReal :=
  (x - interp gm mg) * invStd gv vg * w + b

/-- A real that is nonnegative as an extended real is the coercion of a nonnegative real. -/
theorem nonneg_real {y : EReal} (hy : IsReal y) (h0 : 0 ≤ y) : ∃ v : ℝ, 0 ≤ v ∧ y = ((v : ℝ) : EReal) := by
  obtain ⟨v, rfl⟩ := hy
  exact ⟨v, EReal.coe_nonneg.mp h0, rfl⟩

/-- THE LAW, entry by entry: for real data and nonnegative variances the two arrangements agree. -/
theorem foldedElt_eq_directElt {x w b gm gv mg vg : EReal} (hx : IsReal x) (hw : IsReal w) (hb : IsReal b)
    (hgm : IsReal gm) (hmg : IsReal mg)
    (hgv : ∃ v : ℝ, 0 ≤ v ∧ gv = ((v : ℝ) : EReal)) (hvg : ∃ v : ℝ, 0 ≤ v ∧ vg = ((v : ℝ) : EReal)) :
    foldedElt x w b gm gv mg vg = directElt x w b gm gv mg vg := by
  obtain ⟨X, rfl⟩ := hx
  obtain ⟨W, rfl⟩ := hw
  obtain ⟨B, rfl⟩ := hb
  obtain ⟨GM, rfl⟩ := hgm
  obtain ⟨MG, rfl⟩ := hmg
  obtain ⟨GV, hGV, rfl⟩ := hgv
  obtain ⟨VG, hVG, rfl⟩ := hvg
  have hv : 0 < (1 / 2 : ℝ) * GV + (1 / 2 : ℝ) * VG + (10995116 : ℝ) * (2 : ℝ) ^ (-40 : ℤ) := by
    have h1 := mul_nonneg (by norm_num : (0 : ℝ) ≤ 1 / 2) hGV
    have h2 := mul_nonneg (by norm_num : (0 : ℝ) ≤ 1 / 2) hVG
    have h3 := eps_pos
    linarith
  have hr : invStd ((GV : ℝ) : EReal) ((VG : ℝ) : EReal)
      = (((Real.sqrt ((1 / 2 : ℝ) * GV + (1 / 2 : ℝ) * VG + (10995116 : ℝ) * (2 : ℝ) ^ (-40 : ℤ)))⁻¹ : ℝ) : EReal) := by
    unfold invStd interp
    rw [half_eq, eps_eq, ← EReal.coe_mul, ← EReal.coe_mul, ← EReal.coe_add, ← EReal.coe_add]
    exact rsqrt_coe_pos hv
  have hm : interp ((GM : ℝ) : EReal) ((MG : ℝ) : EReal) = (((1 / 2 : ℝ) * GM + (1 / 2 : ℝ) * MG : ℝ) : EReal) := by
    unfold interp
    rw [half_eq, ← EReal.coe_mul, ← EReal.coe_mul, ← EReal.coe_add]
  unfold foldedElt directElt
  rw [hr, hm]
  generalize (Real.sqrt ((1 / 2 : ℝ) * GV + (1 / 2 : ℝ) * VG + (10995116 : ℝ) * (2 : ℝ) ^ (-40 : ℤ)))⁻¹ = R
  generalize (1 / 2 : ℝ) * GM + (1 / 2 : ℝ) * MG = M
  rw [← EReal.coe_mul, ← EReal.coe_mul, ← EReal.coe_mul, ← EReal.coe_sub, ← EReal.coe_add,
    ← EReal.coe_sub, ← EReal.coe_mul, ← EReal.coe_mul, ← EReal.coe_add]
  exact congrArg _ (by ring)

/-! ## The two arrangements over whole arrays -/

/-- The folded arrangement over the arrays: entry (p, q, h, k) from x[p,q,h,k], the channel parameters at q
    and the per-sample statistics at (p, q). -/
def foldedOut (x : SData.Idx → EReal) (w b gm gv : SChan.Idx → EReal) (mg vg : SStat.Idx → EReal) :
    SData.Idx → EReal := fun i =>
  foldedElt (x i) (w (ix1 (n := 128) (i 1))) (b (ix1 (n := 128) (i 1))) (gm (ix1 (n := 128) (i 1)))
    (gv (ix1 (n := 128) (i 1))) (mg (ix2 (n0 := 128) (n1 := 128) (i 0) (i 1))) (vg (ix2 (n0 := 128) (n1 := 128) (i 0) (i 1)))

/-- The direct arrangement over the arrays. -/
def directOut (x : SData.Idx → EReal) (w b gm gv : SChan.Idx → EReal) (mg vg : SStat.Idx → EReal) :
    SData.Idx → EReal := fun i =>
  directElt (x i) (w (ix1 (n := 128) (i 1))) (b (ix1 (n := 128) (i 1))) (gm (ix1 (n := 128) (i 1)))
    (gv (ix1 (n := 128) (i 1))) (mg (ix2 (n0 := 128) (n1 := 128) (i 0) (i 1))) (vg (ix2 (n0 := 128) (n1 := 128) (i 0) (i 1)))

/-- THE LAW over the arrays: real data, real parameters and statistics, nonnegative variances. -/
theorem foldedOut_eq_directOut {x : SData.Idx → EReal} {w b gm gv : SChan.Idx → EReal} {mg vg : SStat.Idx → EReal}
    (hx : ∀ i, IsReal (x i)) (hw : ∀ i, IsReal (w i)) (hb : ∀ i, IsReal (b i)) (hgm : ∀ i, IsReal (gm i))
    (hmg : ∀ i, IsReal (mg i))
    (hgv : ∀ i, ∃ v : ℝ, 0 ≤ v ∧ gv i = ((v : ℝ) : EReal)) (hvg : ∀ i, ∃ v : ℝ, 0 ≤ v ∧ vg i = ((v : ℝ) : EReal)) :
    foldedOut x w b gm gv mg vg = directOut x w b gm gv mg vg :=
  funext fun i => foldedElt_eq_directElt (hx _) (hw _) (hb _) (hgm _) (hmg _) (hgv _) (hvg _)

end Cert.ClassNorm

end
-- ==== Proof.Admissible.lean ====
/-
  What the precondition says of the inputs.

  The precondition is a conjunction of nine tests, each an "all entries" reduction: for each of the seven
  float inputs, |entry| < +∞; for the global and the per-class running variance, entry ≥ 0.  On the
  extended reals |y| < +∞ says exactly that y is a real number (neither infinity), and the order test
  is the order of the extended reals.  So under the precondition every float input is an array of real
  numbers and the two variance inputs are arrays of nonnegative reals.
-/
import proofs.«101528_j76192719831881_1_alg».proof.Pre_finite_inputs
import proofs.«101528_j76192719831881_1_alg».proof.Proof.LibMoments
import Idealize.ShloMosaic.Lib.ReduceAll
import Idealize.ShloMosaic.Lib.IdealHost
import Idealize.ShloMosaic.Lib.ValueIdx

noncomputable section

namespace Cert.ClassNorm

open Idealize.ShloMosaic Cert.LibMoments

/-! ## One comparison, read back -/

/-- The strict order test is the strict order of the extended reals. -/
theorem cmp_olt_eq_one {x y : EReal} : Ideal.cmp .olt x y = 1#1 ↔ x < y := by
  unfold Ideal.cmp
  by_cases h : x < y <;> simp [h]

/-- The "greater or equal" test is the order of the extended reals. -/
theorem cmp_oge_eq_one {x y : EReal} : Ideal.cmp .oge x y = 1#1 ↔ y ≤ x := by
  unfold Ideal.cmp
  by_cases h : y ≤ x <;> simp [h]

/-- The word 7F800000 denotes +∞. -/
theorem ofBits_inf : Ideal.ofBits .f32 0x7F800000#32 = ⊤ := by
  simp [Ideal.ofBits, Ideal.ieee]

/-- An extended real whose absolute value is below +∞ is a real number. -/
theorem isReal_of_abs_lt_top {y : EReal} (h : max y (-y) < ⊤) : IsReal y := by
  rw [isReal_iff]
  constructor
  · rintro rfl; simp at h
  · rintro rfl; simp at h

/-! ## One "all entries" test, read back -/

/-- All entries pass |·| < +∞: every entry is real. -/
theorem real_of_all_finite {S s0 t u : Shape} [Subsingleton t.Idx] {axes : List (Fin S.rank)}
    (x : FVec Ideal S .f32) (dims : Fin s0.rank → Fin S.rank) (hb : s0.BroadcastsInDim S dims)
    (init : IVec u 1) (h : S.ReducesTo axes t) (hu : 0 < u.numel) (j : t.Idx)
    (e : Host.reduce IntOp.andi (cmpf .olt (Host.absf x) (broadcastInDim S dims hb (constant s0 .f32 0x7F800000#32)))
      init h hu j = 1#1) (i : S.Idx) : IsReal (x i) := by
  have h1 := Host.reduce_andi_all _ init h hu j e i
  have h2 : Ideal.cmp .olt (max (x i) (-(x i))) (Ideal.ofBits .f32 0x7F800000#32) = 1#1 := h1
  rw [ofBits_inf] at h2
  exact isReal_of_abs_lt_top (cmp_olt_eq_one.1 h2)

/-- All entries pass · ≥ 0: every entry is nonnegative. -/
theorem nonneg_of_all_ge {S s0 t u : Shape} [Subsingleton t.Idx] {axes : List (Fin S.rank)}
    (x : FVec Ideal S .f32) (dims : Fin s0.rank → Fin S.rank) (hb : s0.BroadcastsInDim S dims)
    (init : IVec u 1) (h : S.ReducesTo axes t) (hu : 0 < u.numel) (j : t.Idx)
    (e : Host.reduce IntOp.andi (cmpf .oge x (broadcastInDim S dims hb (constant s0 .f32 0x00000000#32)))
      init h hu j = 1#1) (i : S.Idx) : 0 ≤ x i := by
  have h1 := Host.reduce_andi_all _ init h hu j e i
  have h2 : Ideal.cmp .oge (x i) (Ideal.ofBits .f32 0x00000000#32) = 1#1 := h1
  rw [Ideal.ofBits_zero_f32] at h2
  exact cmp_oge_eq_one.1 h2

/-! ## The precondition, read back -/

open Cert.Pre_finite_inputs

variable [Cert.Pre_finite_inputs.Facts]

instance : Subsingleton Cert.Pre_finite_inputs.S_.Idx := ⟨fun a b => funext fun d => d.elim0⟩

/-- What the proof uses of the inputs: reals throughout, the two variance inputs nonnegative. -/
structure Admissible (x : FVec Ideal S128x128x56x56 .f32) (w b gm gv : FVec Ideal S128 .f32)
    (cm cv : FVec Ideal S100x128 .f32) : Prop where
  x_real : ∀ i, IsReal (x i)
  w_real : ∀ i, IsReal (w i)
  b_real : ∀ i, IsReal (b i)
  gm_real : ∀ i, IsReal (gm i)
  gv_real : ∀ i, IsReal (gv i)
  cm_real : ∀ i, IsReal (cm i)
  cv_real : ∀ i, IsReal (cv i)
  gv_nonneg : ∀ i, 0 ≤ gv i
  cv_nonneg : ∀ i, 0 ≤ cv i

/-- The precondition gives all nine facts (the labels are unconstrained). -/
theorem admissible_of_pre (x : FVec Ideal S128x128x56x56 .f32) (lbl : IVec S128 32) (w b gm gv : FVec Ideal S128 .f32)
    (cm cv : FVec Ideal S100x128 .f32)
    (h : Cert.Pre_finite_inputs.fn (F := Ideal) x lbl w b gm gv cm cv = fun _ => 1#1) :
    Admissible x w b gm gv cm cv := by
  have h0 := congrFun h ValueIdx.ix0
  dsimp only [fn, fn_part1, fn_part2, andi] at h0
  obtain ⟨h0, c9⟩ := IntOp.andi_eq_one.1 h0
  obtain ⟨h0, c8⟩ := IntOp.andi_eq_one.1 h0
  obtain ⟨h0, c7⟩ := IntOp.andi_eq_one.1 h0
  obtain ⟨h0, c6⟩ := IntOp.andi_eq_one.1 h0
  obtain ⟨h0, c5⟩ := IntOp.andi_eq_one.1 h0
  obtain ⟨h0, c4⟩ := IntOp.andi_eq_one.1 h0
  obtain ⟨h0, c3⟩ := IntOp.andi_eq_one.1 h0
  obtain ⟨c1, c2⟩ := IntOp.andi_eq_one.1 h0
  exact
    { x_real := real_of_all_finite _ _ _ _ _ _ _ c1
      w_real := real_of_all_finite _ _ _ _ _ _ _ c2
      b_real := real_of_all_finite _ _ _ _ _ _ _ c3
      gm_real := real_of_all_finite _ _ _ _ _ _ _ c4
      gv_real := real_of_all_finite _ _ _ _ _ _ _ c5
      cm_real := real_of_all_finite _ _ _ _ _ _ _ c6
      cv_real := real_of_all_finite _ _ _ _ _ _ _ c7
      gv_nonneg := nonneg_of_all_ge _ _ _ _ _ _ _ c8
      cv_nonneg := nonneg_of_all_ge _ _ _ _ _ _ _ c9 }

end Cert.ClassNorm

end
-- ==== Proof.RefValue.lean ====
/-
  The reference program's result is the DIRECT arrangement.

  Read one host operation at a time, the reference's result at (p, q, h, k) is
  ((x[p,q,h,k] − μ[p,q]) · r[p,q]) · w[q] + b[q], with μ = ½·gm[q] + ½·mg[p,q] and
  r = (½·gv[q] + ½·vg[p,q] + ε)^(-1/2), where mg and vg are the two gathers of the per-class tables by the
  (wrapped) labels.  The broadcasts only re-index: a [128]-array is read at q, a [128,128]-array at (p, q).
-/
import proofs.«101528_j76192719831881_1_alg».proof.Proof.Gen.ReferenceIdeal.Read
import proofs.«101528_j76192719831881_1_alg».proof.Proof.AffineLaw

noncomputable section

namespace Cert.ClassNorm.Ref

open Cert.ReferenceIdeal Cert.ReferenceIdeal.Read Idealize.ShloMosaic Idealize.ShloMosaic.ValueIdx Cert.ClassNorm

/-- The per-class means gathered by label: one row of the table per sample. -/
abbrev gatheredMean (lbl : (⟨S128, .i32⟩ : BufTy).Contents (Elt Ideal)) (cm : (⟨S100x128, .f32⟩ : BufTy).Contents (Elt Ideal)) :
    (⟨S128x128, .f32⟩ : BufTy).Contents (Elt Ideal) := val_main_v9 (F := Ideal) lbl cm

/-- The per-class variances gathered by label. -/
abbrev gatheredVar (lbl : (⟨S128, .i32⟩ : BufTy).Contents (Elt Ideal)) (cv : (⟨S100x128, .f32⟩ : BufTy).Contents (Elt Ideal)) :
    (⟨S128x128, .f32⟩ : BufTy).Contents (Elt Ideal) := val_main_v23 (F := Ideal) lbl cv

/-- The interpolated mean at (p, q): ½·gm[q] + ½·mg[p,q]. -/
theorem mean_apply (lbl : (⟨S128, .i32⟩ : BufTy).Contents (Elt Ideal)) (gm : (⟨S128, .f32⟩ : BufTy).Contents (Elt Ideal))
    (cm : (⟨S100x128, .f32⟩ : BufTy).Contents (Elt Ideal)) (j : S128x128.Idx) :
    val_main_v13 (F := Ideal) lbl gm cm j = interp (gm (ix1 (n := 128) (j 1))) (gatheredMean lbl cm j) := by
  rw [val_main_v13_apply, val_main_v12_apply, val_main_v2_apply, val_main_v1_apply, val_main_cst_apply,
    val_main_v0_apply, val_main_v11_apply, val_main_v10_apply, val_main_cst_1_apply]
  have e : idx_main_v0 (idx_main_v12 j) = ix1 (n := 128) (j 1) := funext fun a => match a with | ⟨0, _⟩ => rfl
  rw [e]
  rfl

/-- The reciprocal standard deviation at (p, q): (½·gv[q] + ½·vg[p,q] + ε)^(-1/2). -/
theorem invStd_apply (lbl : (⟨S128, .i32⟩ : BufTy).Contents (Elt Ideal)) (gv : (⟨S128, .f32⟩ : BufTy).Contents (Elt Ideal))
    (cv : (⟨S100x128, .f32⟩ : BufTy).Contents (Elt Ideal)) (j : S128x128.Idx) :
    val_main_v30 (F := Ideal) lbl gv cv j = invStd (gv (ix1 (n := 128) (j 1))) (gatheredVar lbl cv j) := by
  rw [val_main_v30_apply, val_main_v29_apply, val_main_v27_apply, val_main_v26_apply, val_main_v16_apply,
    val_main_v15_apply, val_main_cst_2_apply, val_main_v14_apply, val_main_v25_apply, val_main_v24_apply,
    val_main_cst_5_apply, val_main_v28_apply, val_main_cst_6_apply]
  have e : idx_main_v14 (idx_main_v26 j) = ix1 (n := 128) (j 1) := funext fun a => match a with | ⟨0, _⟩ => rfl
  rw [e]
  rfl

/-- THE REFERENCE'S RESULT is the direct arrangement of the inputs and the two gathered tables. -/
theorem result_eq_direct (x : (⟨S128x128x56x56, .f32⟩ : BufTy).Contents (Elt Ideal))
    (lbl : (⟨S128, .i32⟩ : BufTy).Contents (Elt Ideal)) (w b gm gv : (⟨S128, .f32⟩ : BufTy).Contents (Elt Ideal))
    (cm cv : (⟨S100x128, .f32⟩ : BufTy).Contents (Elt Ideal)) :
    val_main_v42 (F := Ideal) x lbl w b gm gv cm cv
      = directOut x w b gm gv (gatheredMean lbl cm) (gatheredVar lbl cv) := by
  funext i
  rw [val_main_v42_apply, val_main_v39_apply, val_main_v36_apply, val_main_v33_apply, val_main_v32_apply,
    val_main_v31_apply, val_main_v35_apply, val_main_v34_apply, val_main_v38_apply, val_main_v37_apply,
    val_main_v41_apply, val_main_v40_apply, mean_apply, invStd_apply]
  have e1 : idx_main_v31 (idx_main_v32 i) = ix2 (n0 := 128) (n1 := 128) (i 0) (i 1) :=
    funext fun a => match a with | ⟨0, _⟩ => rfl | ⟨1, _⟩ => rfl
  have e2 : idx_main_v34 (idx_main_v35 i) = ix2 (n0 := 128) (n1 := 128) (i 0) (i 1) :=
    funext fun a => match a with | ⟨0, _⟩ => rfl | ⟨1, _⟩ => rfl
  have e3 : idx_main_v37 (idx_main_v38 i) = ix1 (n := 128) (i 1) := funext fun a => match a with | ⟨0, _⟩ => rfl
  have e4 : idx_main_v40 (idx_main_v41 i) = ix1 (n := 128) (i 1) := funext fun a => match a with | ⟨0, _⟩ => rfl
  rw [e1, e2, e3, e4]
  rfl

end Cert.ClassNorm.Ref

end
-- ==== Proof.KernelBlocks.lean ====
/-
  From blocks to the array: what the kernel's result array holds after the run.

  The grid has 32 points; point t owns the four samples 4t … 4t+3, all channels, all pixels.  The data window
  and the result window move together (block index (t, 0, 0, 0)), and so do the two statistics windows, whose
  blocks are [4, 128, 1, 1].  At a point the body computes, entry by entry of the block,
  x · scale + shift with the statistics read at (sample, channel, 0, 0).  Hence block t of the result is the
  restriction to the block of ONE function of the whole arrays,

      (p, q, h, k) ↦ x[p,q,h,k] · scale[p,q,0,0] + shift[p,q,0,0],

  and since the 32 blocks cover all 128 samples, the result array after the run is that function.
-/
import proofs.«101528_j76192719831881_1_alg».proof.Proof.Gen.KernelIdeal.Value
import Idealize.ShloMosaic.Lib.Pipeline.Value
import Idealize.ShloMosaic.PureOps.Ideal

noncomputable section

namespace Cert.ClassNorm.Ker

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Where entry (p, q, h, k) reads a per-sample, per-channel statistic: (p, q, 0, 0). -/
abbrev statIdx (i : S128x128x56x56.Idx) : S128x128x1x1.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨0, Nat.one_pos⟩

/-- The affine map of the data by per-sample, per-channel scale and shift, over the whole arrays. -/
def affine (x : S128x128x56x56.Idx → EReal) (sc sh : S128x128x1x1.Idx → EReal) : S128x128x56x56.Idx → EReal :=
  fun i => x i * sc (statIdx i) + sh (statIdx i)

/-- The data array as the region finds it. -/
abbrev dataArr (c : Dev nD) : S128x128x56x56.Idx → EReal := V m c main_arg0
/-- The scale array as the region finds it: what @main computed before the call, reshaped to [128,128,1,1]. -/
abbrev scaleArr (c : Dev nD) : S128x128x1x1.Idx → EReal := V m c main_v38
/-- The shift array as the region finds it. -/
abbrev shiftArr (c : Dev nD) : S128x128x1x1.Idx → EReal := V m c main_v39

theorem zero_offsets : (![0, 0, 0, 0] : Fin 4 → Nat) = fun _ => 0 := funext fun a => by fin_cases a <;> rfl

/-- The index maps, decided over the 32 points: the data window moves with the result window; the statistics
    windows follow it on the sample and channel axes and stay at 0 on the two unit axes; the result window's block
    index is (t, 0, 0, 0). -/
theorem index_facts : ∀ t : Fin cfg0.N,
    win0_0.index t (0 : Fin 4) = win0_3.index t (0 : Fin 4) ∧ win0_0.index t (1 : Fin 4) = win0_3.index t (1 : Fin 4)
    ∧ win0_0.index t (2 : Fin 4) = win0_3.index t (2 : Fin 4) ∧ win0_0.index t (3 : Fin 4) = win0_3.index t (3 : Fin 4)
    ∧ win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_2.index t (0 : Fin 4) = win0_3.index t (0 : Fin 4) ∧ win0_2.index t (1 : Fin 4) = win0_3.index t (1 : Fin 4)
    ∧ win0_2.index t (2 : Fin 4) = 0 ∧ win0_2.index t (3 : Fin 4) = 0
    ∧ win0_3.index t (0 : Fin 4) = t.val ∧ win0_3.index t (1 : Fin 4) = 0
    ∧ win0_3.index t (2 : Fin 4) = 0 ∧ win0_3.index t (3 : Fin 4) = 0 :=
  (by decide +kernel : ∀ t : Fin grid0.N, _)

/-- WHAT POINT t WRITES BACK is block t of the affine map of the arrays as the region finds them. -/
theorem flushed_eq (c : Dev nD) (t : Fin cfg0.N) :
    (dats m 0 c).flushed 3 t = ((cfg0.win 3).blk t).view.read (Elt Ideal)
      (affine (dataArr m c) (scaleArr m c) (shiftArr m c)) := by
  rw [Value.flushed3]
  unfold out0_3
  funext j
  refine (Value.canon3_eq (F := Ideal) (View.ld (iblk m c 0 t) r0_0) (View.ld (iblk m c 1 t) r0_1) (View.ld (iblk m c 2 t) r0_1) j).trans ?_
  simp only [View.ld_unit_zero (S := S4x128x56x56) zero_offsets, View.ld_unit_zero (S := S4x128x1x1) zero_offsets]
  obtain ⟨a0, a1, a2, a3, b0, b1, b2, b3, c0, c1, c2, c3, d0, d1, d2, d3⟩ := index_facts t
  have hj0 : (j 0).val < 4 := (j 0).isLt
  have hj1 : (j 1).val < 128 := (j 1).isLt
  have hj2 : (j 2).val < 56 := (j 2).isLt
  have hj3 : (j 3).val < 56 := (j 3).isLt
  show (FloatOps.addf (F := Ideal) (φ := .f32) (FloatOps.mulf (F := Ideal) (φ := .f32) (dataArr m c (((cfg0.win 0).blk t).view.emb (Value.ix3_0 j)))
      (scaleArr m c (((cfg0.win 1).blk t).view.emb (Value.ix3_1 j)))) (shiftArr m c (((cfg0.win 2).blk t).view.emb (Value.ix3_2 j))) : EReal)
    = dataArr m c (((cfg0.win 3).blk t).view.emb j) * scaleArr m c (statIdx (((cfg0.win 3).blk t).view.emb j))
      + shiftArr m c (statIdx (((cfg0.win 3).blk t).view.emb j))
  have h0 : ((cfg0.win 0).blk t).view.emb (Value.ix3_0 j) = ((cfg0.win 3).blk t).view.emb j := by
    funext a; apply Fin.ext
    match a with
    | ⟨0, _⟩ => show win0_0.index t (0 : Fin 4) * 4 + 1 * (j 0).val = win0_3.index t (0 : Fin 4) * 4 + 1 * (j 0).val; omega
    | ⟨1, _⟩ => show win0_0.index t (1 : Fin 4) * 128 + 1 * (j 1).val = win0_3.index t (1 : Fin 4) * 128 + 1 * (j 1).val; omega
    | ⟨2, _⟩ => show win0_0.index t (2 : Fin 4) * 56 + 1 * (j 2).val = win0_3.index t (2 : Fin 4) * 56 + 1 * (j 2).val; omega
    | ⟨3, _⟩ => show win0_0.index t (3 : Fin 4) * 56 + 1 * (j 3).val = win0_3.index t (3 : Fin 4) * 56 + 1 * (j 3).val; omega
  have h1 : ((cfg0.win 1).blk t).view.emb (Value.ix3_1 j) = statIdx (((cfg0.win 3).blk t).view.emb j) := by
    funext a; apply Fin.ext
    match a with
    | ⟨0, _⟩ => show win0_1.index t (0 : Fin 4) * 4 + 1 * (j 0).val = win0_3.index t (0 : Fin 4) * 4 + 1 * (j 0).val; omega
    | ⟨1, _⟩ => show win0_1.index t (1 : Fin 4) * 128 + 1 * (j 1).val = win0_3.index t (1 : Fin 4) * 128 + 1 * (j 1).val; omega
    | ⟨2, _⟩ => show win0_1.index t (2 : Fin 4) * 1 + 1 * 0 = 0; omega
    | ⟨3, _⟩ => show win0_1.index t (3 : Fin 4) * 1 + 1 * 0 = 0; omega
  have h2 : ((cfg0.win 2).blk t).view.emb (Value.ix3_2 j) = statIdx (((cfg0.win 3).blk t).view.emb j) := by
    funext a; apply Fin.ext
    match a with
    | ⟨0, _⟩ => show win0_2.index t (0 : Fin 4) * 4 + 1 * (j 0).val = win0_3.index t (0 : Fin 4) * 4 + 1 * (j 0).val; omega
    | ⟨1, _⟩ => show win0_2.index t (1 : Fin 4) * 128 + 1 * (j 1).val = win0_3.index t (1 : Fin 4) * 128 + 1 * (j 1).val; omega
    | ⟨2, _⟩ => show win0_2.index t (2 : Fin 4) * 1 + 1 * 0 = 0; omega
    | ⟨3, _⟩ => show win0_2.index t (3 : Fin 4) * 1 + 1 * 0 = 0; omega
  rw [h0, h1, h2]
  rfl

/-- An index of the result array lies in point t's block iff each coordinate lies in the block's range on its axis. -/
theorem mem_block (t : Fin cfg0.N) (i : S128x128x56x56.Idx) :
    i ∈ ((cfg0.win 3).blk t).view.set ↔ ∀ a : Fin 4, win0_3.index t a * S4x128x56x56.size a ≤ (i a).val
      ∧ (i a).val < win0_3.index t a * S4x128x56x56.size a + S4x128x56x56.size a := by
  show i ∈ ((View.whole main_v40).slice (win0_3.rect t)).set ↔ _
  rw [View.set_slice_whole, Rect.mem_set_unit]
  exact Iff.rfl

/-- Every entry of the result array lies in the block of the point that owns its sample: point ⌊p / 4⌋. -/
theorem covered (i : S128x128x56x56.Idx) :
    ∃ t : Fin cfg0.N, (cfg0.win 3).flush t = true ∧ i ∈ ((cfg0.win 3).blk t).view.set := by
  have hi0 : (i 0).val < 128 := (i 0).isLt
  have hi1 : (i 1).val < 128 := (i 1).isLt
  have hi2 : (i 2).val < 56 := (i 2).isLt
  have hi3 : (i 3).val < 56 := (i 3).isLt
  have hN : cfg0.N = 32 := N_0
  let t : Fin cfg0.N := ⟨(i 0).val / 4, by omega⟩
  obtain ⟨-, -, -, -, -, -, -, -, -, -, -, -, d0, d1, d2, d3⟩ := index_facts t
  have ht : t.val = (i 0).val / 4 := rfl
  refine ⟨t, flush0_3 t, ?_⟩
  rw [mem_block]
  intro a
  match a with
  | ⟨0, _⟩ => show win0_3.index t (0 : Fin 4) * 4 ≤ (i 0).val ∧ (i 0).val < win0_3.index t (0 : Fin 4) * 4 + 4; omega
  | ⟨1, _⟩ => show win0_3.index t (1 : Fin 4) * 128 ≤ (i 1).val ∧ (i 1).val < win0_3.index t (1 : Fin 4) * 128 + 128; omega
  | ⟨2, _⟩ => show win0_3.index t (2 : Fin 4) * 56 ≤ (i 2).val ∧ (i 2).val < win0_3.index t (2 : Fin 4) * 56 + 56; omega
  | ⟨3, _⟩ => show win0_3.index t (3 : Fin 4) * 56 ≤ (i 3).val ∧ (i 3).val < win0_3.index t (3 : Fin 4) * 56 + 56; omega

/-- THE RESULT ARRAY after the run is the affine map of the arrays as the region finds them. -/
theorem final (c : Dev nD) :
    (dats m 0 c).arrAt 3 cfg0.N = affine (dataArr m c) (scaleArr m c) (shiftArr m c) :=
  (dats m 0 c).arrAt_eq_of_cover 3 _ (fun t _ => flushed_eq m c t) covered

end Cert.ClassNorm.Ker

end
-- ==== Proof.KernelStats.lean ====
/-
  The scale and shift arrays the kernel is launched with.

  Before the call, @main computes — with the very operations the reference uses — the interpolated mean μ[p,q]
  and the reciprocal standard deviation r[p,q], then

      scale = r ⊙ w   and   shift = b − μ ⊙ scale      (w and b read along the channel axis),

  and reshapes both from [128,128] to [128,128,1,1].  Read at (p, q, 0, 0) the reshaped arrays are scale[p,q]
  and shift[p,q], so the region finds exactly the coefficients of the folded arrangement.
-/
import proofs.«101528_j76192719831881_1_alg».proof.Proof.KernelBlocks
import proofs.«101528_j76192719831881_1_alg».proof.Proof.RefValue
import Idealize.ShloMosaic.Lib.StableHlo.Run
import Idealize.ShloMosaic.Lib.Pipeline.Value

noncomputable section

namespace Cert.ClassNorm.Ker

open Cert.KernelIdeal Cert.KernelIdeal.Gen Idealize.ShloMosaic Idealize.ShloMosaic.TcCoe Idealize.SL.Sem
open Idealize.ShloMosaic.StableHlo Idealize.ShloMosaic.ValueIdx Cert.ClassNorm

variable (m : (ℓ : Loc nD τ sig) → Buf (Elt Ideal) ℓ)

/-! ## The inputs as launched, at their literal types -/

abbrev xIn (c : Dev nD) : S128x128x56x56.Idx → EReal := m ((c : Thread nD τ).loc main_arg0)
abbrev lblIn (c : Dev nD) : IVec S128 32 := m ((c : Thread nD τ).loc main_arg1)
abbrev wIn (c : Dev nD) : S128.Idx → EReal := m ((c : Thread nD τ).loc main_arg2)
abbrev bIn (c : Dev nD) : S128.Idx → EReal := m ((c : Thread nD τ).loc main_arg3)
abbrev gmIn (c : Dev nD) : S128.Idx → EReal := m ((c : Thread nD τ).loc main_arg4)
abbrev gvIn (c : Dev nD) : S128.Idx → EReal := m ((c : Thread nD τ).loc main_arg5)
abbrev cmIn (c : Dev nD) : S100x128.Idx → EReal := m ((c : Thread nD τ).loc main_arg6)
abbrev cvIn (c : Dev nD) : S100x128.Idx → EReal := m ((c : Thread nD τ).loc main_arg7)

/-! ## A per-channel array laid along the rows of a [128,128] array -/

/-- v ↦ the array whose entry (p, q) is v[q]: [128] → [1,128] → [128,128]. -/
def chanRow (v : S128.Idx → EReal) : S128x128.Idx → EReal :=
  broadcastInDim S128x128 ![0, 1] bcast_S1x128_S128x128_0_1 (broadcastInDim S1x128 ![1] bcast_S128_S1x128_1 v)

theorem chanRow_apply (v : S128.Idx → EReal) (j : S128x128.Idx) : chanRow v j = v (ix1 (n := 128) (j 1)) := by
  unfold chanRow
  refine (broadcastInDim_apply _ bcast_S1x128_S128x128_0_1 _ j
    (fun a => match a with | ⟨0, _⟩ => ⟨0, Nat.one_pos⟩ | ⟨1, _⟩ => ⟨(j 1).val, (j 1).isLt⟩)
    (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)])).trans ?_
  exact broadcastInDim_apply _ bcast_S128_S1x128_1 v _ (ix1 (n := 128) (j 1))
    (fun a => match a with
      | ⟨0, _⟩ => by show (j 1).val = if (128 : Nat) = 1 then 0 else (j 1).val; rw [if_neg (by decide)])

/-! ## Scale and shift before the reshape -/

/-- scale[p,q] = r[p,q] · w[q], with r the reference's own reciprocal standard deviation array. -/
def scale2 (c : Dev nD) : S128x128.Idx → EReal :=
  mulf (F := Ideal) (φ := .f32) (Cert.ReferenceIdeal.Read.val_main_v30 (F := Ideal) (lblIn m c) (gvIn m c) (cvIn m c))
    (chanRow (wIn m c))

/-- shift[p,q] = b[q] − μ[p,q] · scale[p,q], with μ the reference's own interpolated mean array. -/
def shift2 (c : Dev nD) : S128x128.Idx → EReal :=
  subf (F := Ideal) (φ := .f32) (chanRow (bIn m c))
    (mulf (F := Ideal) (φ := .f32) (Cert.ReferenceIdeal.Read.val_main_v13 (F := Ideal) (lblIn m c) (gmIn m c) (cmIn m c))
      (scale2 m c))

set_option maxRecDepth 8192 in
set_option maxHeartbeats 2000000 in
/-- The region finds the scale array at scale2, reshaped. -/
theorem scaleArr_eq (c : Dev nD) :
    scaleArr m c = shapeCast S128x128x1x1 (scale2 m c) shapeCasts_S128x128_S128x128x1x1 := by
  show (V m c main_v38 : S128x128x1x1.Idx → EReal) = _
  dsimp only [Gen.V, Gen.hostOps0]
  after_results_simp
  rfl

set_option maxRecDepth 8192 in
set_option maxHeartbeats 2000000 in
/-- The region finds the shift array at shift2, reshaped. -/
theorem shiftArr_eq (c : Dev nD) :
    shiftArr m c = shapeCast S128x128x1x1 (shift2 m c) shapeCasts_S128x128_S128x128x1x1 := by
  show (V m c main_v39 : S128x128x1x1.Idx → EReal) = _
  dsimp only [Gen.V, Gen.hostOps0]
  after_results_simp
  rfl

/-- A [128,128] array reshaped to [128,128,1,1], read at (p, q, 0, 0), is the array at (p, q). -/
theorem reshape_stat_apply (f : S128x128.Idx → EReal) (i : S128x128x56x56.Idx) :
    shapeCast S128x128x1x1 f shapeCasts_S128x128_S128x128x1x1 (statIdx i) = f (ix2 (n0 := 128) (n1 := 128) (i 0) (i 1)) := by
  refine shapeCast_apply f _ (statIdx i) (ix2 (n0 := 128) (n1 := 128) (i 0) (i 1)) ?_
  rw [Shape.rowMajor_val_two, Shape.rowMajor_val_four]
  show (i 0).val * 128 + (i 1).val = (((i 0).val * 128 + (i 1).val) * 1 + 0) * 1 + 0
  omega

/-- scale at (p, q, 0, 0). -/
theorem scaleArr_apply (c : Dev nD) (i : S128x128x56x56.Idx) :
    scaleArr m c (statIdx i)
      = invStd (gvIn m c (ix1 (n := 128) (i 1))) (Ref.gatheredVar (lblIn m c) (cvIn m c) (ix2 (n0 := 128) (n1 := 128) (i 0) (i 1)))
        * wIn m c (ix1 (n := 128) (i 1)) := by
  rw [scaleArr_eq, reshape_stat_apply]
  show (Cert.ReferenceIdeal.Read.val_main_v30 (F := Ideal) (lblIn m c) (gvIn m c) (cvIn m c) (ix2 (n0 := 128) (n1 := 128) (i 0) (i 1)) : EReal)
      * chanRow (wIn m c) (ix2 (n0 := 128) (n1 := 128) (i 0) (i 1)) = _
  rw [Ref.invStd_apply, chanRow_apply]

/-- shift at (p, q, 0, 0). -/
theorem shiftArr_apply (c : Dev nD) (i : S128x128x56x56.Idx) :
    shiftArr m c (statIdx i)
      = bIn m c (ix1 (n := 128) (i 1))
        - interp (gmIn m c (ix1 (n := 128) (i 1))) (Ref.gatheredMean (lblIn m c) (cmIn m c) (ix2 (n0 := 128) (n1 := 128) (i 0) (i 1)))
          * (invStd (gvIn m c (ix1 (n := 128) (i 1))) (Ref.gatheredVar (lblIn m c) (cvIn m c) (ix2 (n0 := 128) (n1 := 128) (i 0) (i 1)))
            * wIn m c (ix1 (n := 128) (i 1))) := by
  rw [shiftArr_eq, reshape_stat_apply]
  show (chanRow (bIn m c) (ix2 (n0 := 128) (n1 := 128) (i 0) (i 1)) : EReal)
      - Cert.ReferenceIdeal.Read.val_main_v13 (F := Ideal) (lblIn m c) (gmIn m c) (cmIn m c) (ix2 (n0 := 128) (n1 := 128) (i 0) (i 1))
        * ((Cert.ReferenceIdeal.Read.val_main_v30 (F := Ideal) (lblIn m c) (gvIn m c) (cvIn m c) (ix2 (n0 := 128) (n1 := 128) (i 0) (i 1)) : EReal)
          * chanRow (wIn m c) (ix2 (n0 := 128) (n1 := 128) (i 0) (i 1))) = _
  rw [Ref.mean_apply, Ref.invStd_apply, chanRow_apply, chanRow_apply]

/-- THE KERNEL'S RESULT ARRAY is the folded arrangement of the inputs and the two gathered tables. -/
theorem affine_eq_folded (c : Dev nD) :
    affine (dataArr m c) (scaleArr m c) (shiftArr m c)
      = foldedOut (xIn m c) (wIn m c) (bIn m c) (gmIn m c) (gvIn m c)
          (Ref.gatheredMean (lblIn m c) (cmIn m c)) (Ref.gatheredVar (lblIn m c) (cvIn m c)) := by
  funext i
  show dataArr m c i * scaleArr m c (statIdx i) + shiftArr m c (statIdx i) = _
  rw [scaleArr_apply, shiftArr_apply]
  have hx : dataArr m c = xIn m c := V_main_arg0 m c
  rw [hx]
  rfl

end Cert.ClassNorm.Ker

end
-- ==== Proof.lean ====
/-
  Class-conditional batch normalisation at inference: the kernel against its reference, over the extended reals.

  Both programs interpolate, per sample p and channel q, the global running statistics with the row of the
  per-class tables picked by the sample's label: μ = ½·gm[q] + ½·cm[label p, q], v = ½·gv[q] + ½·cv[label p, q],
  r = (v + ε)^(-1/2).  The reference then normalises directly, ((x − μ)·r)·w + b.  The kernel folds the statistics
  into scale = r·w and shift = b − μ·scale on the host and runs one affine pass x·scale + shift over the data,
  four samples per grid point.

  The two arrangements differ by distributivity, which fails on the extended reals at the infinities; and
  r is +∞ when v + ε = 0.  Under the precondition — every float input finite and both variance inputs
  nonnegative — v + ε is a positive real, r is a real number, and all values are real, so the identity is the
  real field's.  The gathers are the same operation on the same operands in both programs; all that is used of
  them is that a gathered entry is an entry of the table.

  The pieces: the law (AffineLaw), the precondition read back (Admissible), the reference's result as the direct
  arrangement (RefValue), the kernel's result array as one affine map of the arrays the region finds
  (KernelBlocks) and those arrays as the folded coefficients (KernelStats).
-/
import proofs.«101528_j76192719831881_1_alg».proof.Defs
import proofs.«101528_j76192719831881_1_alg».proof.Proof.Gen.Kernel
import proofs.«101528_j76192719831881_1_alg».proof.Proof.Gen.Kernel.Skeleton
import proofs.«101528_j76192719831881_1_alg».proof.Proof.Gen.Kernel.Launch
import proofs.«101528_j76192719831881_1_alg».proof.Proof.Gen.Kernel.Points
import proofs.«101528_j76192719831881_1_alg».proof.Proof.Gen.Kernel.Frame
import proofs.«101528_j76192719831881_1_alg».proof.Proof.Gen.KernelIdeal
import proofs.«101528_j76192719831881_1_alg».proof.Proof.Gen.KernelIdeal.Skeleton
import proofs.«101528_j76192719831881_1_alg».proof.Proof.Gen.KernelIdeal.Launch
import proofs.«101528_j76192719831881_1_alg».proof.Proof.Gen.KernelIdeal.Points
import proofs.«101528_j76192719831881_1_alg».proof.Proof.Gen.KernelIdeal.Frame
import proofs.«101528_j76192719831881_1_alg».proof.Proof.Gen.ReferenceIdeal
import proofs.«101528_j76192719831881_1_alg».proof.Proof.Gen.Pre_finite_inputs
import proofs.«101528_j76192719831881_1_alg».proof.Proof.Gen.KernelIdeal.Value
import proofs.«101528_j76192719831881_1_alg».proof.Proof.Gen.ReferenceIdeal.Run
import proofs.«101528_j76192719831881_1_alg».proof.Proof.Gen.ReferenceIdeal.Read
import proofs.«101528_j76192719831881_1_alg».proof.Proof.AffineLaw
import proofs.«101528_j76192719831881_1_alg».proof.Proof.Admissible
import proofs.«101528_j76192719831881_1_alg».proof.Proof.RefValue
import proofs.«101528_j76192719831881_1_alg».proof.Proof.KernelBlocks
import proofs.«101528_j76192719831881_1_alg».proof.Proof.KernelStats
import Idealize.ShloMosaic.Adequacy
import Idealize.ShloMosaic.Init

noncomputable section

namespace Cert.Proof

open Idealize.ShloMosaic Idealize.ShloMosaic.TcCoe Idealize.SL.Sem Cert.ClassNorm Cert.LibMoments

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the same result array: the kernel's is the folded arrangement, the reference's the direct
    one, of the same inputs and the same gathered tables, and under the precondition the two agree. -/
theorem algebraic : Cert.algebraic_KernelIdeal_ReferenceIdeal := by
  intro m ρ m' ρ' hpre hagree
  refine ⟨fun c => foldedOut (Ker.xIn m c) (Ker.wIn m c) (Ker.bIn m c) (Ker.gmIn m c) (Ker.gvIn m c)
      (Ref.gatheredMean (Ker.lblIn m c) (Ker.cmIn m c)) (Ref.gatheredVar (Ker.lblIn m c) (Ker.cvIn m c)),
    (θ_run Cert.KernelIdeal.defs _ _).mono
      (fun r h c => ⟨(h c).1.trans ((Ker.final m c).trans (Ker.affine_eq_folded m c)), (h c).2⟩)
      (Cert.KernelIdeal.Value.run_blocks m ρ), ?_⟩
  refine (θ_run Cert.ReferenceIdeal.defs _ _).mono (fun _ h c => ⟨(h c).1.trans ?_, (h c).2⟩)
    (Cert.ReferenceIdeal.Value.run (F := Ideal) m' ρ')
  have A := admissible_of_pre _ _ _ _ _ _ _ _ (hpre c)
  rw [Cert.ReferenceIdeal.Read.val_main_v42_eq, Ref.result_eq_direct, (hagree c).1, (hagree c).2.1, (hagree c).2.2.1,
    (hagree c).2.2.2.1, (hagree c).2.2.2.2.1, (hagree c).2.2.2.2.2.1, (hagree c).2.2.2.2.2.2.1, (hagree c).2.2.2.2.2.2.2]
  exact (foldedOut_eq_directOut A.x_real A.w_real A.b_real A.gm_real (fun j => A.cm_real _)
    (fun i => nonneg_real (A.gv_real i) (A.gv_nonneg i)) (fun j => nonneg_real (A.cv_real _) (A.cv_nonneg _))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
